-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x62x128 : Shape := ⟨3, ![8192, 62, 128]⟩
abbrev S62x62 : Shape := ⟨2, ![62, 62]⟩
abbrev S128x64 : Shape := ⟨2, ![128, 64]⟩
abbrev S64 : Shape := ⟨1, ![64]⟩
abbrev S_ : Shape := ⟨0, ![]⟩

class Facts : Prop where
  bcast_S_S8192x62x128 : S_.BroadcastsInDim S8192x62x128 (![] : Fin 0 → Fin S8192x62x128.rank)
  reducesTo_S8192x62x128_S_d0_1_2 : S8192x62x128.ReducesTo [0, 1, 2] S_
  h_S_ : 0 < S_.numel
  bcast_S_S62x62 : S_.BroadcastsInDim S62x62 (![] : Fin 0 → Fin S62x62.rank)
  reducesTo_S62x62_S_d0_1 : S62x62.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x62x128 .f32) (main_arg1 : FVec F S62x62 .f32) (main_arg2 : FVec F S128x64 .f32) (main_arg3 : FVec F S64 .f32) : IVec S_ 1 :=
  let main_v0 : FVec F S8192x62x128 .f32 := Host.absf main_arg0
  let main_cst : FVec F S_ .f32 := constant S_ .f32 0x7F800000#32
  let main_v1 : FVec F S8192x62x128 .f32 := broadcastInDim S8192x62x128 ![] bcast_S_S8192x62x128 main_cst
  let main_v2 : IVec S8192x62x128 1 := cmpf .olt main_v0 main_v1
  let main_c : IVec S_ 1 := constantI S_ 1 1#1
  let main_v3 : IVec S_ 1 := (fun x v => Host.reduce IntOp.andi x v reducesTo_S8192x62x128_S_d0_1_2 h_S_) main_v2 main_c
  let main_v4 : FVec F S62x62 .f32 := Host.absf main_arg1
  let main_cst_0 : FVec F S_ .f32 := constant S_ .f32 0x7F800000#32
  let main_v5 : FVec F S62x62 .f32 := broadcastInDim S62x62 ![] bcast_S_S62x62 main_cst_0
  let main_v6 : IVec S62x62 1 := cmpf .olt main_v4 main_v5
  let main_c_1 : IVec S_ 1 := constantI S_ 1 1#1
  let main_v7 : IVec S_ 1 := (fun x v => Host.reduce IntOp.andi x v reducesTo_S62x62_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x62x128 : Shape := ⟨3, ![8192, 62, 128]⟩
abbrev S62x62 : Shape := ⟨2, ![62, 62]⟩
abbrev S128x64 : Shape := ⟨2, ![128, 64]⟩
abbrev S64 : Shape := ⟨1, ![64]⟩
abbrev S507904x128 : Shape := ⟨2, ![507904, 128]⟩
abbrev S1x64 : Shape := ⟨2, ![1, 64]⟩
abbrev S_ : Shape := ⟨0, ![]⟩
abbrev S62 : Shape := ⟨1, ![62]⟩
abbrev S62x1 : Shape := ⟨2, ![62, 1]⟩
abbrev S1x62 : Shape := ⟨2, ![1, 62]⟩
abbrev S507904x64 : Shape := ⟨2, ![507904, 64]⟩
abbrev S8192x128 : Shape := ⟨2, ![8192, 128]⟩
abbrev S8192x64 : Shape := ⟨2, ![8192, 64]⟩
abbrev S62x64 : Shape := ⟨2, ![62, 64]⟩
abbrev S8192x62x64 : Shape := ⟨3, ![8192, 62, 64]⟩

abbrev nBuf : Space → Nat
  | .hbm => 24
  | .vmem => 8
  | .smem => 0
  | _ => 0

abbrev bufTy : (tb : Table) → Fin (tcTables nBuf tb) → BufTy
  | .hbm, ⟨0, _⟩ => ⟨S8192x62x128, .f32⟩
  | .hbm, ⟨1, _⟩ => ⟨S62x62, .f32⟩
  | .hbm, ⟨2, _⟩ => ⟨S128x64, .f32⟩
  | .hbm, ⟨3, _⟩ => ⟨S64, .f32⟩
  | .hbm, ⟨4, _⟩ => ⟨S507904x128, .f32⟩
  | .hbm, ⟨5, _⟩ => ⟨S1x64, .f32⟩
  | .hbm, ⟨6, _⟩ => ⟨S_, .f32⟩
  | .hbm, ⟨7, _⟩ => ⟨S62, .f32⟩
  | .hbm, ⟨8, _⟩ => ⟨S_, .f32⟩
  | .hbm, ⟨9, _⟩ => ⟨S62, .f32⟩
  | .hbm, ⟨10, _⟩ => ⟨S62, .f32⟩
  | .hbm, ⟨11, _⟩ => ⟨S_, .f32⟩
  | .hbm, ⟨12, _⟩ => ⟨S62, .f32⟩
  | .hbm, ⟨13, _⟩ => ⟨S62, .f32⟩
  | .hbm, ⟨14, _⟩ => ⟨S62x1, .f32⟩
  | .hbm, ⟨15, _⟩ => ⟨S62x62, .f32⟩
  | .hbm, ⟨16, _⟩ => ⟨S62x62, .f32⟩
  | .hbm, ⟨17, _⟩ => ⟨S1x62, .f32⟩
  | .hbm, ⟨18, _⟩ => ⟨S62x62, .f32⟩
  | .hbm, ⟨19, _⟩ => ⟨S62x62, .f32⟩
  | .hbm, ⟨20, _⟩ => ⟨S62, .f32⟩
  | .hbm, ⟨21, _⟩ => ⟨S62x1, .f32⟩
  | .hbm, ⟨22, _⟩ => ⟨S507904x64, .f32⟩
  | .hbm, ⟨23, _⟩ => ⟨S8192x62x64, .f32⟩
  | .local _ .vmem, ⟨0, _⟩ => ⟨S8192x128, .f32⟩
  | .local _ .vmem, ⟨1, _⟩ => ⟨S8192x128, .f32⟩
  | .local _ .vmem, ⟨2, _⟩ => ⟨S128x64, .f32⟩
  | .local _ .vmem, ⟨3, _⟩ => ⟨S1x64, .f32⟩
  | .local _ .vmem, ⟨4, _⟩ => ⟨S62x62, .f32⟩
  | .local _ .vmem, ⟨5, _⟩ => ⟨S62x1, .f32⟩
  | .local _ .vmem, ⟨6, _⟩ => ⟨S8192x64, .f32⟩
  | .local _ .vmem, ⟨7, _⟩ => ⟨S8192x64, .f32⟩
  | _, _ => ⟨S8192x62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S62x62 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S62x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x62x128_S507904x128 : S8192x62x128.ShapeCasts S507904x128
  shapeCasts_S64_S1x64 : S64.ShapeCasts S1x64
  reducesTo_S62x62_S62_d0 : S62x62.ReducesTo [0] S62
  h_S_ : 0 < S_.numel
  bcast_S_S62 : S_.BroadcastsInDim S62 (![] : Fin 0 → Fin S62.rank)
  bcast_S62_S62x1_0 : S62.BroadcastsInDim S62x1 (![0] : Fin 1 → Fin S62x1.rank)
  bcast_S62x1_S62x62_0_1 : S62x1.BroadcastsInDim S62x62 (![0, 1] : Fin 2 → Fin S62x62.rank)
  bcast_S62_S1x62_1 : S62.BroadcastsInDim S1x62 (![1] : Fin 1 → Fin S1x62.rank)
  bcast_S1x62_S62x62_0_1 : S1x62.BroadcastsInDim S62x62 (![0, 1] : Fin 2 → Fin S62x62.rank)
  shapeCasts_S62_S62x1 : S62.ShapeCasts S62x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  slices_S8192x64_o0_0_S62x64 : S8192x64.Slices ![0, 0] S62x64
  inb_S62x62_S62x62_0_0 : ∀ a, (![0, 0] : Fin 2 → Nat) a + S62x62.size a ≤ S62x62.size a
  h_S62x62 : 0 < S62x62.numel
  shapeCasts_S62x62_S62x62 : S62x62.ShapeCasts S62x62
  inb_S62x1_S62x1_0_0 : ∀ a, (![0, 0] : Fin 2 → Nat) a + S62x1.size a ≤ S62x1.size a
  h_S62x1 : 0 < S62x1.numel
  shapeCasts_S62x1_S62x1 : S62x1.ShapeCasts S62x1
  transposes_S62x62_p1_0_S62x62 : S62x62.Transposes [1, 0] S62x62
  broadcasts_S62x1_S62x64 : S62x1.Broadcasts S62x64
  broadcasts_S1x64_S62x64 : S1x64.Broadcasts S62x64
  inb_S8192x64_S62x64_0_0 : ∀ a, (![0, 0] : Fin 2 → Nat) a + S62x64.size a ≤ S8192x64.size a
  h_S62x64 : 0 < S62x64.numel
  shapeCasts_S507904x64_S8192x62x64 : S507904x64.ShapeCasts S8192x62x64
  dot_S8192x128_S128x64_S8192x64_1_0_0_1_n_n_wf : DotDims.WF S8192x128 S128x64 S8192x64 [1] [0] [0] [1] [] []
  dot_S62x62_S62x64_S62x64_1_0_0_1_n_n_wf : DotDims.WF S62x62 S62x64 S62x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S507904x128.size a
  hwx0_0 : ∀ i : grid0.Coords, EltTy.bits .f32 = 32 ∨ (Rect.block (s := S507904x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S62x62.size a ≤ S62x62.size a
  hwx0_3 : ∀ i : grid0.Coords, EltTy.bits .f32 = 32 ∨ (Rect.block (s := S62x62) S62x62.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S62x1.size a ≤ S62x1.size a
  hwx0_4 : ∀ i : grid0.Coords, EltTy.bits .f32 = 32 ∨ (Rect.block (s := S62x1) S62x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S507904x64.size a
  hwx0_5 : ∀ i : grid0.Coords, EltTy.bits .f32 = 32 ∨ (Rect.block (s := S507904x64) S8192x64.size (cc0_transform_5 i) (hinb0_5 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S62x62_S62x64_S62x64_1_0_0_1_n_n : DotDims S62x62 S62x64 S62x64 where
  lhsContracting := [1]
  rhsContracting := [0]
  lhsNonContracting := [0]
  rhsNonContracting := [1]
  lhsBatch := []
  rhsBatch := []
  wf := dot_S62x62_S62x64_S62x64_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S62x62.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S62x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x62x128 : Shape := ⟨3, ![8192, 62, 128]⟩
abbrev S62x62 : Shape := ⟨2, ![62, 62]⟩
abbrev S128x64 : Shape := ⟨2, ![128, 64]⟩
abbrev S64 : Shape := ⟨1, ![64]⟩
abbrev S507904x128 : Shape := ⟨2, ![507904, 128]⟩
abbrev S507904x64 : Shape := ⟨2, ![507904, 64]⟩
abbrev S_ : Shape := ⟨0, ![]⟩
abbrev S62 : Shape := ⟨1, ![62]⟩
abbrev S62x1 : Shape := ⟨2, ![62, 1]⟩
abbrev S1x62 : Shape := ⟨2, ![1, 62]⟩
abbrev S62x64 : Shape := ⟨2, ![62, 64]⟩
abbrev S1 : Shape := ⟨1, ![1]⟩
abbrev S1x64 : Shape := ⟨2, ![1, 64]⟩
abbrev S8192x62x64 : Shape := ⟨3, ![8192, 62, 64]⟩

abbrev nBuf : Space → Nat
  | .hbm => 42
  | .vmem => 0
  | .smem => 0
  | _ => 0

abbrev bufTy : (tb : Table) → Fin (tcTables nBuf tb) → BufTy
  | .hbm, ⟨0, _⟩ => ⟨S8192x62x128, .f32⟩
  | .hbm, ⟨1, _⟩ => ⟨S62x62, .f32⟩
  | .hbm, ⟨2, _⟩ => ⟨S128x64, .f32⟩
  | .hbm, ⟨3, _⟩ => ⟨S64, .f32⟩
  | .hbm, ⟨4, _⟩ => ⟨S507904x128, .f32⟩
  | .hbm, ⟨5, _⟩ => ⟨S507904x64, .f32⟩
  | .hbm, ⟨6, _⟩ => ⟨S_, .f32⟩
  | .hbm, ⟨7, _⟩ => ⟨S62, .f32⟩
  | .hbm, ⟨8, _⟩ => ⟨S_, .f32⟩
  | .hbm, ⟨9, _⟩ => ⟨S62, .f32⟩
  | .hbm, ⟨10, _⟩ => ⟨S62, .f32⟩
  | .hbm, ⟨11, _⟩ => ⟨S_, .f32⟩
  | .hbm, ⟨12, _⟩ => ⟨S62, .f32⟩
  | .hbm, ⟨13, _⟩ => ⟨S62, .f32⟩
  | .hbm, ⟨14, _⟩ => ⟨S62x1, .f32⟩
  | .hbm, ⟨15, _⟩ => ⟨S62x62, .f32⟩
  | .hbm, ⟨16, _⟩ => ⟨S62x62, .f32⟩
  | .hbm, ⟨17, _⟩ => ⟨S1x62, .f32⟩
  | .hbm, ⟨18, _⟩ => ⟨S62x62, .f32⟩
  | .hbm, ⟨19, _⟩ => ⟨S62x62, .f32⟩
  | .hbm, ⟨20, _⟩ => ⟨S62x64, .f32⟩
  | .hbm, ⟨21, _⟩ => ⟨S62x62, .f32⟩
  | .hbm, ⟨22, _⟩ => ⟨S62x64, .f32⟩
  | .hbm, ⟨23, _⟩ => ⟨S62, .f32⟩
  | .hbm, ⟨24, _⟩ => ⟨S62x1, .f32⟩
  | .hbm, ⟨25, _⟩ => ⟨S62x64, .f32⟩
  | .hbm, ⟨26, _⟩ => ⟨S62x64, .f32⟩
  | .hbm, ⟨27, _⟩ => ⟨S62x64, .f32⟩
  | .hbm, ⟨28, _⟩ => ⟨S_, .i32⟩
  | .hbm, ⟨29, _⟩ => ⟨S1, .i32⟩
  | .hbm, ⟨30, _⟩ => ⟨S507904x64, .f32⟩
  | .hbm, ⟨31, _⟩ => ⟨S1x64, .f32⟩
  | .hbm, ⟨32, _⟩ => ⟨S507904x64, .f32⟩
  | .hbm, ⟨33, _⟩ => ⟨S507904x64, .f32⟩
  | .hbm, ⟨34, _⟩ => ⟨S8192x62x64, .f32⟩
  | .hbm, ⟨35, _⟩ => ⟨S_, .f32⟩
  | .hbm, ⟨36, _⟩ => ⟨S8192x62x64, .f32⟩
  | .hbm, ⟨37, _⟩ => ⟨S8192x62x64, .i1⟩
  | .hbm, ⟨38, _⟩ => ⟨S_, .f32⟩
  | .hbm, ⟨39, _⟩ => ⟨S8192x62x64, .f32⟩
  | .hbm, ⟨40, _⟩ => ⟨S8192x62x64, .f32⟩
  | .hbm, ⟨41, _⟩ => ⟨S8192x62x64, .f32⟩
  | _, _ => ⟨S8192x62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S8192x62x128_S507904x128 : S8192x62x128.ShapeCasts S507904x128
  reducesTo_S62x62_S62_d0 : S62x62.ReducesTo [0] S62
  h_S_ : 0 < S_.numel
  bcast_S_S62 : S_.BroadcastsInDim S62 (![] : Fin 0 → Fin S62.rank)
  bcast_S62_S62x1_0 : S62.BroadcastsInDim S62x1 (![0] : Fin 1 → Fin S62x1.rank)
  bcast_S62x1_S62x62_0_1 : S62x1.BroadcastsInDim S62x62 (![0, 1] : Fin 2 → Fin S62x62.rank)
  bcast_S62_S1x62_1 : S62.BroadcastsInDim S1x62 (![1] : Fin 1 → Fin S1x62.rank)
  bcast_S1x62_S62x62_0_1 : S1x62.BroadcastsInDim S62x62 (![0, 1] : Fin 2 → Fin S62x62.rank)
  slices_S507904x64_S62x64_0_0 : S507904x64.Slices ![0, 0] S62x64
  transposes_S62x62_S62x62_1_0 : S62x62.Transposes [1, 0] S62x62
  bcast_S62x1_S62x64_0_1 : S62x1.BroadcastsInDim S62x64 (![0, 1] : Fin 2 → Fin S62x64.rank)
  bcast_S_S1 : S_.BroadcastsInDim S1 (![] : Fin 0 → Fin S1.rank)
  bcast_S64_S1x64_1 : S64.BroadcastsInDim S1x64 (![1] : Fin 1 → Fin S1x64.rank)
  bcast_S1x64_S507904x64_0_1 : S1x64.BroadcastsInDim S507904x64 (![0, 1] : Fin 2 → Fin S507904x64.rank)
  shapeCasts_S507904x64_S8192x62x64 : S507904x64.ShapeCasts S8192x62x64
  bcast_S_S8192x62x64 : S_.BroadcastsInDim S8192x62x64 (![] : Fin 0 → Fin S8192x62x64.rank)
  dot_S507904x128_S128x64_S507904x64_1_0_0_1_n_n_wf : DotDims.WF S507904x128 S128x64 S507904x64 [1] [0] [0] [1] [] []
  dot_S62x62_S62x64_S62x64_1_0_0_1_n_n_wf : DotDims.WF S62x62 S62x64 S62x64 [1] [0] [0] [1] [] []
  scatter_S507904x64_S1_S62x64_01_n_0_0_wf : ScatterDims.WF S507904x64 S1 S62x64 [0, 1] [] [0] 0

variable [Facts₀]

def dot_S507904x128_S128x64_S507904x64_1_0_0_1_n_n : DotDims S507904x128 S128x64 S507904x64 where
  lhsContracting := [1]
  rhsContracting := [0]
  lhsNonContracting := [0]
  rhsNonContracting := [1]
  lhsBatch := []
  rhsBatch := []
  wf := dot_S507904x128_S128x64_S507904x64_1_0_0_1_n_n_wf
def dot_S62x62_S62x64_S62x64_1_0_0_1_n_n : DotDims S62x62 S62x64 S62x64 where
  lhsContracting := [1]
  rhsContracting := [0]
  lhsNonContracting := [0]
  rhsNonContracting := [1]
  lhsBatch := []
  rhsBatch := []
  wf := dot_S62x62_S62x64_S62x64_1_0_0_1_n_n_wf
def scatter_S507904x64_S1_S62x64_01_n_0_0 : ScatterDims S507904x64 S1 S62x64 where
  updateWindowDims := [0, 1]
  insertedWindowDims := []
  scatterDimsToOperandDims := [0]
  indexVectorDim := 0
  wf := scatter_S507904x64_S1_S62x64_01_n_0_0_wf

class Facts : Prop extends Facts₀ where

variable [Facts]
-- ==== Proof.Spec.lean ====
/-
  What both programs compute, stated once over the argument arrays at the ideal values.

  The input x : [8192, 62, 128] is read as a flat array of 507904 rows of 128 features. Every row r is sent through the
  weights, (xW)[r, c] = ∑ q < 128, x[r, q] · W[q, c]. The adjacency enters only through the degree vector
  d = (1 + column sums of adj) ^ (-1/2): the normalised adjacency is na[i, j] = adj[i, j] · d[i] · d[j] and the self
  weight is d[j] · d[j]. The first 62 rows (the first sample's nodes) are replaced by the aggregate
      agg[j, c] = ∑ i < 62, na[i, j] · (xW)[i, c] + d[j]² · (xW)[j, c],
  every other row keeps (xW)[r, c]; the bias b[c] is added to every row and the leaky rectifier
  v ↦ (v if v ≥ 0 else 0.01 · v) is applied entry by entry. The result is read back as [8192, 62, 64].
  Nothing here needs the inputs to be finite: both programs are the same expression tree entry by entry.
-/
import Idealize.ShloMosaic.PureOps.Ideal.Laws
import Idealize.ShloMosaic.Lib.ValueIdx

noncomputable section

open scoped BigOperators

namespace Cert.Spec

open Idealize.ShloMosaic Idealize.ShloMosaic.ValueIdx

/-- The shapes of the arguments, of the flat views and of the result. -/
abbrev SX : Shape := ⟨3, ![8192, 62, 128]⟩
abbrev SX2 : Shape := ⟨2, ![507904, 128]⟩
abbrev SA : Shape := ⟨2, ![62, 62]⟩
abbrev SW : Shape := ⟨2, ![128, 64]⟩
abbrev SB : Shape := ⟨1, ![64]⟩
abbrev SV : Shape := ⟨1, ![62]⟩
abbrev SC : Shape := ⟨2, ![62, 1]⟩
abbrev SR : Shape := ⟨2, ![1, 62]⟩
abbrev S0 : Shape := ⟨0, ![]⟩
abbrev SO2 : Shape := ⟨2, ![507904, 64]⟩
abbrev SO : Shape := ⟨3, ![8192, 62, 64]⟩

/-- The degree vector to the power -1/2: d[j] = (1 + ∑ i, adj[i, j]) ^ (-1/2), as the host computes it. -/
def dvec (adj : FVec Ideal SA .f32) : FVec Ideal SV .f32 :=
  Host.powf
    (addf (broadcastInDim SV ![] (by decide) (constant (F := Ideal) S0 .f32 0x3F800000#32))
      (Host.reduceAdd adj (constant (F := Ideal) S0 .f32 0x00000000#32) (by decide : SA.ReducesTo [0] SV) (by decide)))
    (broadcastInDim SV ![] (by decide) (constant (F := Ideal) S0 .f32 0xBF000000#32))

/-- The normalised adjacency na[i, j] = (adj[i, j] · d[i]) · d[j]. -/
def normAdj (adj : FVec Ideal SA .f32) : FVec Ideal SA .f32 :=
  mulf
    (mulf adj (broadcastInDim SA ![0, 1] (by decide) (broadcastInDim SC ![0] (by decide) (dvec adj))))
    (broadcastInDim SA ![0, 1] (by decide) (broadcastInDim SR ![1] (by decide) (dvec adj)))

/-- The self weight d[j] · d[j]. -/
def dsq (adj : FVec Ideal SA .f32) : FVec Ideal SV .f32 := mulf (dvec adj) (dvec adj)

/-- The leaky rectifier with slope 0.01 (the float closest to it) on one entry. -/
def lrelu (v : EReal) : EReal :=
  Scalar.select (FloatOps.cmpf (F := Ideal) (φ := .f32) .oge v (Ideal.ofBits .f32 0x00000000#32)) v
    (Ideal.ofBits .f32 0x3C23D70A#32 * v)

/-- Row r of the flat input through the weights, at column c. -/
def xw (x2 : FVec Ideal SX2 .f32) (W : FVec Ideal SW .f32) (r : Fin 507904) (c : Fin 64) : EReal :=
  ∑ q : Fin 128, x2 (ix2 r q) * W (ix2 q c)

/-- The aggregate over the 62 nodes of the first sample: ∑ i, na[i, j] · y[i, c] + dq[j] · y[j, c]. -/
def agg (na : FVec Ideal SA .f32) (dq : FVec Ideal SV .f32) (y : Fin 62 → Fin 64 → EReal) (j : Fin 62) (c : Fin 64) : EReal :=
  (∑ i : Fin 62, na (ix2 i j) * y i c) + dq (ix1 j) * y j c

/-- One of the first 62 rows as a row of the flat array. -/
abbrev lo (i : Fin 62) : Fin 507904 := ⟨i.val, by omega⟩

/-- The value before the rectifier at flat row r, column c. -/
def pre (x2 : FVec Ideal SX2 .f32) (W : FVec Ideal SW .f32) (na : FVec Ideal SA .f32) (dq : FVec Ideal SV .f32)
    (b : FVec Ideal SB .f32) (r : Fin 507904) (c : Fin 64) : EReal :=
  (if h : r.val < 62 then agg na dq (fun i c' => xw x2 W (lo i) c') ⟨r.val, h⟩ c else xw x2 W r c) + b (ix1 c)

/-- The flat result, [507904, 64]. -/
def flat (x2 : FVec Ideal SX2 .f32) (W : FVec Ideal SW .f32) (na : FVec Ideal SA .f32) (dq : FVec Ideal SV .f32)
    (b : FVec Ideal SB .f32) : FVec Ideal SO2 .f32 :=
  fun j => lrelu (pre x2 W na dq b (j 0) (j 1))

/-- The result as a function of the four arguments. -/
def out (x : FVec Ideal SX .f32) (adj : FVec Ideal SA .f32) (W : FVec Ideal SW .f32) (b : FVec Ideal SB .f32) :
    FVec Ideal SO .f32 :=
  shapeCast SO (flat (shapeCast SX2 x (by decide)) W (normAdj adj) (dsq adj) b) (by decide)

end Cert.Spec

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KerPayload.lean ====
/-
  The two values the kernel body stores, read at one entry at the ideal values.

  Every block point stores, over its whole [8192, 64] block, the rectifier of (block rows of x) · W + b. The first
  point then overwrites the first 62 rows with the rectifier of the aggregate: the transposed normalised adjacency
  times the first 62 rows of the product, plus the squared-degree column times those rows, plus b.
-/
import proofs.«138363_j9603546874456_2_alg».proof.Proof.Gen.KernelIdeal.Skeleton
import proofs.«138363_j9603546874456_2_alg».proof.Proof.Spec
import proofs.«138363_j9603546874456_2_alg».proof.Proof.LibDotRowsCols
import Idealize.ShloMosaic.Lib.Pipeline.Value
import Idealize.ShloMosaic.Lib.ValueLayout

noncomputable section

open scoped BigOperators

namespace Cert.KernelIdeal.KerPayload

open Cert.KernelIdeal Cert.KernelIdeal.Gen Idealize.ShloMosaic Idealize.ShloMosaic.ValueIdx Cert.Lib.DotRowsCols

/-- One of the first 62 rows as a row of a block. -/
abbrev lo8192 (i : Fin 62) : Fin 8192 := ⟨i.val, by omega⟩

/-- A column [a, 1] broadcast along the lanes to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product's dimension numbers are those of a rows-by-columns product. -/
theorem rc_big : RowsCols (dot_S8192x128_S128x64_S8192x64_1_0_0_1_n_n) := ⟨rfl, rfl, rfl, rfl, rfl, rfl⟩
/-- So are the aggregate's. -/
theorem rc_small : RowsCols (dot_S62x62_S62x64_S62x64_1_0_0_1_n_n) := ⟨rfl, rfl, rfl, rfl, rfl, rfl⟩

/-- The block product at (p, c): ∑ q, x0[p, q] · x1[q, c]. -/
theorem pay1_apply (x0 : Vec Ideal S8192x128 .f32) (x1 : Vec Ideal S128x64 .f32) (p : Fin 8192) (c : Fin 64) :
    k0_pay1 (F := Ideal) x0 x1 (ix2 p c) = ∑ q : Fin 128, x0 (ix2 p q) * x1 (ix2 q c) := by
  unfold k0_pay1
  refine (rc_big.matmul_zero_apply none _ _ (ix2 p c)).trans ?_
  rw [shapeCast_self]
  rfl

/-- The aggregate's product at (p, c): ∑ i, l[p, i] · w[i, c]. -/
theorem matmul_small_apply (l : FVec Ideal S62x62 .f32) (w : FVec Ideal S62x64 .f32) (p : Fin 62) (c : Fin 64) :
    matmul (F := Ideal) dot_S62x62_S62x64_S62x64_1_0_0_1_n_n none l w (constant S62x64 .f32 0x00000000#32) (ix2 p c)
      = ∑ i : Fin 62, l (ix2 p i) * w (ix2 i c) :=
  rc_small.matmul_zero_apply none l w (ix2 p c)

/-- What every point stores at (p, c). -/
theorem pay3_apply (x0 : Vec Ideal S8192x128 .f32) (x1 : Vec Ideal S128x64 .f32) (x2 : Vec Ideal S1x64 .f32)
    (p : Fin 8192) (c : Fin 64) :
    k0_pay3 (F := Ideal) x0 x1 x2 (ix2 p c)
      = Cert.Spec.lrelu ((∑ q : Fin 128, x0 (ix2 p q) * x1 (ix2 q c)) + x2 (ix2 (0 : Fin 1) c)) := by
  unfold k0_pay3 k0_pay2
  dsimp only
  rw [select_apply, cmpf_apply, mulf_apply, addf_apply, broadcast_apply, broadcast_apply, pay1_apply,
    broadcastTo_1b_ab_apply, shapeCast_self]
  rfl

/-- What the first point stores over the first 62 rows, at (p, c). -/
theorem pay4_apply (x0 : Vec Ideal S8192x128 .f32) (x1 : Vec Ideal S128x64 .f32) (x2 : Vec Ideal S1x64 .f32)
    (x3 : Vec Ideal S62x62 .f32) (x4 : Vec Ideal S62x1 .f32) (p : Fin 62) (c : Fin 64) :
    k0_pay4 (F := Ideal) x0 x1 x2 x3 x4 (ix2 p c)
      = Cert.Spec.lrelu
          (((∑ i : Fin 62, x3 (ix2 i p) * (∑ q : Fin 128, x0 (ix2 (lo8192 i) q) * x1 (ix2 q c)))
              + x4 (ix2 p (0 : Fin 1)) * (∑ q : Fin 128, x0 (ix2 (lo8192 p) q) * x1 (ix2 q c)))
            + x2 (ix2 (0 : Fin 1) c)) := by
  unfold k0_pay4 k0_pay2
  dsimp only
  simp only [shapeCast_self]
  rw [select_apply, cmpf_apply, mulf_apply, addf_apply, addf_apply, mulf_apply, broadcast_apply, broadcast_apply,
    broadcastTo_1b_ab_apply, broadcastTo_a1_ab_apply, matmul_small_apply]
  have hs : ∀ i : Fin 62, extractStridedSlice S62x64 ![0, 0] (k0_pay1 (F := Ideal) x0 x1) slices_S8192x64_o0_0_S62x64 (ix2 i c)
      = ∑ q : Fin 128, x0 (ix2 (lo8192 i) q) * x1 (ix2 q c) := fun i =>
    (slice2_axis0_apply 0 _ _ i c (lo8192 i) (Nat.zero_add _).symm).trans (pay1_apply x0 x1 (lo8192 i) c)
  have ht : ∀ i : Fin 62, transpose S62x62 [1, 0] x3 transposes_S62x62_p1_0_S62x62 (ix2 p i) = x3 (ix2 i p) := fun i =>
    transpose_ix2_apply x3 transposes_S62x62_p1_0_S62x62 p i
  simp only [hs, ht]
  rfl

end Cert.KernelIdeal.KerPayload

end
-- ==== Proof.KerPieces.lean ====
/-
  What one run of the kernel body leaves in the output block, as a function of the blocks it loaded.

  Away from the first point the body makes one store over the whole [8192, 64] block. At the first point it makes that
  store and then a second one over rows 0 to 61: an entry of those rows reads the second store's value, every other
  entry the first store's.
-/
import proofs.«138363_j9603546874456_2_alg».proof.Proof.Gen.KernelIdeal.Frame
import proofs.«138363_j9603546874456_2_alg».proof.Proof.KerPayload
import Idealize.ShloMosaic.Lib.Pipeline.Value
import Idealize.ShloMosaic.Lib.ValueIdx
import Idealize.ShloMosaic.Lib.Tactic

noncomputable section

namespace Cert.KernelIdeal.KerPieces

open Cert.KernelIdeal Cert.KernelIdeal.Gen Idealize.ShloMosaic Idealize.ShloMosaic.TcCoe Idealize.SL.Sem Idealize.ShloMosaic.ValueIdx
open Cert.KernelIdeal.KerPayload (lo8192)

variable {F : FTy → Type} [FloatOps F]

theorem hz : (![0, 0] : Fin 2 → Nat) = fun _ => 0 := funext fun a => by fin_cases a <;> rfl

/-- Away from the first point: the one store's value. -/
theorem out_B (c : Dev nD) (i : grid0.Coords) (arg1 : Memref sig .tc .vmem S8192x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S62x62 .f32) (harg4 : arg4.IsWhole) (arg5 : Memref sig .tc .vmem S62x1 .f32) (harg5 : arg5.IsWhole) (arg6 : Memref sig .tc .vmem S8192x64 .f32) (harg6 : arg6.IsWhole) (hc0 : ¬cond0_0 i)
    (x0 : Vec F S8192x128 .f32) (x1 : Vec F S128x64 .f32) (x2 : Vec F S1x64 .f32) (x3 : Vec F S62x62 .f32) (x4 : Vec F S62x1 .f32) :
    out0_B_5 c i arg1 harg1 arg2 harg2 arg3 harg3 arg4 harg4 arg5 harg5 arg6 harg6 hc0 x0 x1 x2 x3 x4 = k0_pay3 x0 x1 x2 := by
  unfold out0_B_5
  rw [View.read_writes_eq_canon _ _ _ (cover0_B_5 c i arg1 harg1 arg2 harg2 arg3 harg3 arg4 harg4 arg5 harg5 arg6 harg6 hc0 x0 x1 x2 x3 x4)]
  unfold kernelRun0_B
  dsimp only
  sl_unfold_words
  rw [View.canon_unit_zero hz]
  simp only [View.readAt_eq_ld, harg1.read_unread, harg2.read_unread, harg3.read_unread, View.ld_unit_zero (S := S8192x128) hz, View.ld_unit_zero (S := S128x64) hz, View.ld_unit_zero (S := S1x64) hz]

/-- At the first point: the later store over rows 0 to 61 laid over the earlier store over the whole block. -/
theorem out_A (c : Dev nD) (i : grid0.Coords) (arg1 : Memref sig .tc .vmem S8192x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S62x62 .f32) (harg4 : arg4.IsWhole) (arg5 : Memref sig .tc .vmem S62x1 .f32) (harg5 : arg5.IsWhole) (arg6 : Memref sig .tc .vmem S8192x64 .f32) (harg6 : arg6.IsWhole) (hc0 : cond0_0 i)
    (x0 : Vec F S8192x128 .f32) (x1 : Vec F S128x64 .f32) (x2 : Vec F S1x64 .f32) (x3 : Vec F S62x62 .f32) (x4 : Vec F S62x1 .f32) :
    out0_A_5 c i arg1 harg1 arg2 harg2 arg3 harg3 arg4 harg4 arg5 harg5 arg6 harg6 hc0 x0 x1 x2 x3 x4
      = View.canon [(⟨Rect.unit ![0, 0] ![62, 64] inb_S8192x64_S62x64_0_0, k0_pay4 x0 x1 x2 x3 x4⟩ : View.Piece (Elt F) S8192x64 .f32),
          ⟨Rect.unit ![0, 0] ![8192, 64] inb_S8192x64_S8192x64_0_0, k0_pay3 x0 x1 x2⟩] := by
  unfold out0_A_5
  rw [View.read_writes_eq_canon _ _ _ (cover0_A_5 c i arg1 harg1 arg2 harg2 arg3 harg3 arg4 harg4 arg5 harg5 arg6 harg6 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S8192x128) hz, View.ld_unit_zero (S := S128x64) hz, View.ld_unit_zero (S := S1x64) hz, View.ld_unit_zero (S := S62x62) hz, View.ld_unit_zero (S := S62x1) hz]

/-- Row p < 62, column q of the block, as the second store's rectangle places its entry (p, q). -/
theorem emb_lo (p : Fin 62) (q : Fin 64) :
    (Rect.unit (s := S8192x64) ![0, 0] ![62, 64] inb_S8192x64_S62x64_0_0).emb (ix2 p q) = (ix2 (lo8192 p) q : S8192x64.Idx) := by
  funext a
  refine Fin.ext ?_
  rw [Rect.emb_apply]
  match a with
  | ⟨0, _⟩ => show 0 + 1 * p.val = p.val; omega
  | ⟨1, _⟩ => show 0 + 1 * q.val = q.val; omega

/-- A row from 62 on is outside the second store's rectangle. -/
theorem not_mem_lo (p : Fin 8192) (q : Fin 64) (hp : 62 ≤ p.val) :
    (ix2 p q : S8192x64.Idx) ∉ (Rect.unit (s := S8192x64) ![0, 0] ![62, 64] inb_S8192x64_S62x64_0_0).set := by
  rw [Rect.mem_set_unit]
  intro h
  have h0 := (h 0).2
  have : p.val < 0 + 62 := h0
  omega

/-- At the first point, an entry of rows 0 to 61 reads the second store. -/
theorem out_A_lo (c : Dev nD) (i : grid0.Coords) (arg1 : Memref sig .tc .vmem S8192x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S62x62 .f32) (harg4 : arg4.IsWhole) (arg5 : Memref sig .tc .vmem S62x1 .f32) (harg5 : arg5.IsWhole) (arg6 : Memref sig .tc .vmem S8192x64 .f32) (harg6 : arg6.IsWhole) (hc0 : cond0_0 i)
    (x0 : Vec F S8192x128 .f32) (x1 : Vec F S128x64 .f32) (x2 : Vec F S1x64 .f32) (x3 : Vec F S62x62 .f32) (x4 : Vec F S62x1 .f32) (p : Fin 62) (q : Fin 64) :
    out0_A_5 c i arg1 harg1 arg2 harg2 arg3 harg3 arg4 harg4 arg5 harg5 arg6 harg6 hc0 x0 x1 x2 x3 x4 (ix2 (lo8192 p) q) = k0_pay4 x0 x1 x2 x3 x4 (ix2 p q) := by
  rw [out_A, ← emb_lo p q]
  exact View.canon_cons_emb _ _ _ _

/-- At the first point, an entry of a later row reads the first store. -/
theorem out_A_hi (c : Dev nD) (i : grid0.Coords) (arg1 : Memref sig .tc .vmem S8192x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S62x62 .f32) (harg4 : arg4.IsWhole) (arg5 : Memref sig .tc .vmem S62x1 .f32) (harg5 : arg5.IsWhole) (arg6 : Memref sig .tc .vmem S8192x64 .f32) (harg6 : arg6.IsWhole) (hc0 : cond0_0 i)
    (x0 : Vec F S8192x128 .f32) (x1 : Vec F S128x64 .f32) (x2 : Vec F S1x64 .f32) (x3 : Vec F S62x62 .f32) (x4 : Vec F S62x1 .f32) (p : Fin 8192) (q : Fin 64) (hp : 62 ≤ p.val) :
    out0_A_5 c i arg1 harg1 arg2 harg2 arg3 harg3 arg4 harg4 arg5 harg5 arg6 harg6 hc0 x0 x1 x2 x3 x4 (ix2 p q) = k0_pay3 x0 x1 x2 (ix2 p q) := by
  rw [out_A]
  refine (View.canon_cons_of_not_mem
    (⟨Rect.unit ![0, 0] ![62, 64] inb_S8192x64_S62x64_0_0, k0_pay4 x0 x1 x2 x3 x4⟩ : View.Piece (Elt F) S8192x64 .f32)
    [⟨Rect.unit ![0, 0] ![8192, 64] inb_S8192x64_S8192x64_0_0, k0_pay3 x0 x1 x2⟩] (not_mem_lo p q hp)).trans ?_
  rw [View.canon_unit_zero hz]

end Cert.KernelIdeal.KerPieces

end
-- ==== Proof.KerHost.lean ====
/-
  The arrays the kernel region finds: the host lines before it reshape x to 507904 rows and b to one row, and compute
  the normalised adjacency and the squared degree vector from adj by the operations `Cert.Spec.normAdj` / `dsq` name.
-/
import proofs.«138363_j9603546874456_2_alg».proof.Proof.Gen.KernelIdeal.Frame
import proofs.«138363_j9603546874456_2_alg».proof.Proof.Spec

noncomputable section

namespace Cert.KernelIdeal.KerHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The flat input the region streams: x read as 507904 rows. -/
theorem V_x2 (c : Dev nD) :
    (V m c main_v0 : S507904x128.Idx → EReal)
      = shapeCast Cert.Spec.SX2 (m ((c.tc : Thread nD τ).loc main_arg0) : Cert.Spec.SX.Idx → EReal)
          (by decide : Cert.Spec.SX.ShapeCasts Cert.Spec.SX2) := by
  show StableHlo.after hostOps0 (fun b => m (c, b)) (Proc.devRef .tc main_v0) = _
  after_results
  rfl

/-- The bias as one row. -/
theorem V_b2 (c : Dev nD) :
    (V m c main_v1 : S1x64.Idx → EReal)
      = shapeCast S1x64 (m ((c.tc : Thread nD τ).loc main_arg3) : Cert.Spec.SB.Idx → EReal)
          (by decide : Cert.Spec.SB.ShapeCasts S1x64) := by
  show StableHlo.after hostOps0 (fun b => m (c, b)) (Proc.devRef .tc main_v1) = _
  after_results
  rfl

/-- The normalised adjacency. -/
theorem V_na (c : Dev nD) :
    (V m c main_v12 : S62x62.Idx → EReal) = Cert.Spec.normAdj (m ((c.tc : Thread nD τ).loc main_arg1)) := by
  show StableHlo.after hostOps0 (fun b => m (c, b)) (Proc.devRef .tc main_v12) = _
  after_results
  rfl

/-- The squared degree vector as a column. -/
theorem V_dq (c : Dev nD) :
    (V m c main_v14 : S62x1.Idx → EReal)
      = shapeCast S62x1 (Cert.Spec.dsq (m ((c.tc : Thread nD τ).loc main_arg1)))
          (by decide : Cert.Spec.SV.ShapeCasts S62x1) := by
  show StableHlo.after hostOps0 (fun b => m (c, b)) (Proc.devRef .tc main_v14) = _
  after_results
  rfl

end Cert.KernelIdeal.KerHost

end
-- ==== Proof.KerBlocks.lean ====
/-
  From the blocks to the array: what the region leaves in its result array, [507904, 64].

  Point t of the grid stages rows 8192·t to 8192·t + 8191 of the flat input and writes back the same rows of the
  result; the weights, the bias row, the normalised adjacency and the squared-degree column are staged whole at every
  point. So row p of point t's block is row r = 8192·t + p of `Cert.Spec.flat`: for t ≥ 1 every row is at least 8192,
  far past the first 62, and at t = 0 the rows below 62 are the ones the second store overwrote with the aggregate.
  The 62 blocks tile the array, so the array ends as `Cert.Spec.flat` of the arrays the region found.
-/
import proofs.«138363_j9603546874456_2_alg».proof.Proof.KerPieces
import proofs.«138363_j9603546874456_2_alg».proof.Proof.KerHost
import Idealize.ShloMosaic.Lib.ValueLayout

noncomputable section

open scoped BigOperators

namespace Cert.KernelIdeal.KerBlocks

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.KerPayload (lo8192 pay3_apply pay4_apply)

variable (m : (ℓ : Loc nD τ sig) → Buf (Elt Ideal) ℓ)

/-- The arrays the region finds, at their literal types. -/
abbrev xarr (c : Dev nD) : FVec Ideal S507904x128 .f32 := V m c main_v0
abbrev warr (c : Dev nD) : FVec Ideal S128x64 .f32 := V m c main_arg2
abbrev barr (c : Dev nD) : FVec Ideal S1x64 .f32 := V m c main_v1
abbrev naarr (c : Dev nD) : FVec Ideal S62x62 .f32 := V m c main_v12
abbrev dqarr (c : Dev nD) : FVec Ideal S62x1 .f32 := V m c main_v14

/-- The blocks point t loads, at their literal types. -/
abbrev xblk (c : Dev nD) (t : Fin cfg0.N) : Vec Ideal S8192x128 .f32 := iblk m c 0 t
abbrev wblk (c : Dev nD) (t : Fin cfg0.N) : Vec Ideal S128x64 .f32 := iblk m c 1 t
abbrev bblk (c : Dev nD) (t : Fin cfg0.N) : Vec Ideal S1x64 .f32 := iblk m c 2 t
abbrev nablk (c : Dev nD) (t : Fin cfg0.N) : Vec Ideal S62x62 .f32 := iblk m c 3 t
abbrev dqblk (c : Dev nD) (t : Fin cfg0.N) : Vec Ideal S62x1 .f32 := iblk m c 4 t

/-- The printed index maps over the grid: the input rows and the result rows move with the point, everything else
    stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's input block is row 8192·t + p of the flat input. -/
theorem xblk_apply (c : Dev nD) (t : Fin cfg0.N) (p : Fin 8192) (k : Fin 128) (r : Fin 507904)
    (hr : r.val = t.val * 8192 + p.val) : xblk m c t (ix2 p k) = xarr m c (ix2 r k) := by
  obtain ⟨e0, e1, -⟩ := idx_facts t
  show V m c main_v0 (((cfg0.win 0).blk t).view.emb (ix2 p k)) = V m c main_v0 (ix2 r k)
  refine congrArg _ (funext fun a => Fin.ext ?_)
  match a with
  | ⟨0, _⟩ => show win0_0.index t (0 : Fin 2) * 8192 + 1 * p.val = r.val; omega
  | ⟨1, _⟩ => show win0_0.index t (1 : Fin 2) * 128 + 1 * k.val = k.val; omega

/-- The weights' block is the weights. -/
theorem wblk_apply (c : Dev nD) (t : Fin cfg0.N) (k : Fin 128) (q : Fin 64) : wblk m c t (ix2 k q) = warr m c (ix2 k q) := by
  obtain ⟨-, -, e0, e1, -⟩ := idx_facts t
  show V m c main_arg2 (((cfg0.win 1).blk t).view.emb (ix2 k q)) = V m c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- The bias row's block is the bias row. -/
theorem bblk_apply (c : Dev nD) (t : Fin cfg0.N) (u : Fin 1) (q : Fin 64) : bblk m c t (ix2 u q) = barr m c (ix2 u q) := by
  obtain ⟨-, -, -, -, e0, e1, -⟩ := idx_facts t
  show V m c main_v1 (((cfg0.win 2).blk t).view.emb (ix2 u q)) = V m c main_v1 (ix2 u q)
  refine congrArg _ (funext fun a => Fin.ext ?_)
  match a with
  | ⟨0, _⟩ => show win0_2.index t (0 : Fin 2) * 1 + 1 * u.val = u.val; omega
  | ⟨1, _⟩ => show win0_2.index t (1 : Fin 2) * 64 + 1 * q.val = q.val; omega

/-- The normalised adjacency's block is the normalised adjacency. -/
theorem nablk_apply (c : Dev nD) (t : Fin cfg0.N) (i j : Fin 62) : nablk m c t (ix2 i j) = naarr m c (ix2 i j) := by
  obtain ⟨-, -, -, -, -, -, e0, e1, -⟩ := idx_facts t
  show V m c main_v12 (((cfg0.win 3).blk t).view.emb (ix2 i j)) = V m c main_v12 (ix2 i j)
  refine congrArg _ (funext fun a => Fin.ext ?_)
  match a with
  | ⟨0, _⟩ => show win0_3.index t (0 : Fin 2) * 62 + 1 * i.val = i.val; omega
  | ⟨1, _⟩ => show win0_3.index t (1 : Fin 2) * 62 + 1 * j.val = j.val; omega

/-- The squared-degree column's block is the column. -/
theorem dqblk_apply (c : Dev nD) (t : Fin cfg0.N) (i : Fin 62) (u : Fin 1) : dqblk m c t (ix2 i u) = dqarr m c (ix2 i u) := by
  obtain ⟨-, -, -, -, -, -, -, -, e0, e1, -⟩ := idx_facts t
  show V m c main_v14 (((cfg0.win 4).blk t).view.emb (ix2 i u)) = V m c main_v14 (ix2 i u)
  refine congrArg _ (funext fun a => Fin.ext ?_)
  match a with
  | ⟨0, _⟩ => show win0_4.index t (0 : Fin 2) * 62 + 1 * i.val = i.val; omega
  | ⟨1, _⟩ => show win0_4.index t (1 : Fin 2) * 1 + 1 * u.val = u.val; omega

/-! ## The arrays found, in the specification's terms -/

/-- The flat input. -/
theorem xarr_eq (c : Dev nD) :
    xarr m c = shapeCast Cert.Spec.SX2 (m ((c.tc : Thread nD τ).loc main_arg0) : Cert.Spec.SX.Idx → EReal)
      (by decide : Cert.Spec.SX.ShapeCasts Cert.Spec.SX2) := KerHost.V_x2 m c
/-- The weights. -/
theorem warr_eq (c : Dev nD) : warr m c = m ((c.tc : Thread nD τ).loc main_arg2) := V_main_arg2 m c
/-- The normalised adjacency. -/
theorem naarr_eq (c : Dev nD) : naarr m c = Cert.Spec.normAdj (m ((c.tc : Thread nD τ).loc main_arg1)) := KerHost.V_na m c
/-- The bias row at column q is b[q]. -/
theorem barr_apply (c : Dev nD) (u : Fin 1) (q : Fin 64) :
    barr m c (ix2 u q) = (m ((c.tc : Thread nD τ).loc main_arg3) : Cert.Spec.SB.Idx → EReal) (ix1 q) := by
  show (V m c main_v1 : S1x64.Idx → EReal) (ix2 u q) = _
  rw [KerHost.V_b2 m c]
  exact shapeCast_a_1a_apply _ _ u q
/-- The squared-degree column at row i is d[i]². -/
theorem dqarr_apply (c : Dev nD) (i : Fin 62) (u : Fin 1) :
    dqarr m c (ix2 i u) = Cert.Spec.dsq (m ((c.tc : Thread nD τ).loc main_arg1)) (ix1 i) := by
  show (V m c main_v14 : S62x1.Idx → EReal) (ix2 i u) = _
  rw [KerHost.V_dq m c]
  refine shapeCast_apply _ _ _ _ ?_
  have hu : u.val = 0 := by omega
  rw [Shape.rowMajor_val_two, Shape.rowMajor_val_one]
  show i.val = i.val * 1 + u.val
  omega

/-- What the region leaves in its result array: `Cert.Spec.flat` of the arguments. -/
abbrev G (c : Dev nD) : FVec Ideal S507904x64 .f32 :=
  Cert.Spec.flat
    (shapeCast Cert.Spec.SX2 (m ((c.tc : Thread nD τ).loc main_arg0) : Cert.Spec.SX.Idx → EReal)
      (by decide : Cert.Spec.SX.ShapeCasts Cert.Spec.SX2))
    (m ((c.tc : Thread nD τ).loc main_arg2))
    (Cert.Spec.normAdj (m ((c.tc : Thread nD τ).loc main_arg1)))
    (Cert.Spec.dsq (m ((c.tc : Thread nD τ).loc main_arg1)))
    (m ((c.tc : Thread nD τ).loc main_arg3))

/-! ## One point's block, entry by entry -/

/-- Row r of the flat input through the weights, from point t's blocks (r = 8192·t + p). -/
theorem xw_blk (c : Dev nD) (t : Fin cfg0.N) (p : Fin 8192) (q : Fin 64) (r : Fin 507904)
    (hr : r.val = t.val * 8192 + p.val) :
    (∑ k : Fin 128, xblk m c t (ix2 p k) * wblk m c t (ix2 k q))
      = Cert.Spec.xw
          (shapeCast Cert.Spec.SX2 (m ((c.tc : Thread nD τ).loc main_arg0) : Cert.Spec.SX.Idx → EReal)
            (by decide : Cert.Spec.SX.ShapeCasts Cert.Spec.SX2))
          (m ((c.tc : Thread nD τ).loc main_arg2)) r q := by
  unfold Cert.Spec.xw
  refine Finset.sum_congr rfl fun k _ => ?_
  rw [xblk_apply m c t p k r hr, wblk_apply m c t k q, xarr_eq m c, warr_eq m c]

/-- The first store's value at row p of point t's block is the specification's at row r = 8192·t + p, when r ≥ 62. -/
theorem pay3_read (c : Dev nD) (t : Fin cfg0.N) (p : Fin 8192) (q : Fin 64) (r : Fin 507904)
    (hr : r.val = t.val * 8192 + p.val) (h62 : 62 ≤ r.val) :
    k0_pay3 (F := Ideal) (xblk m c t) (wblk m c t) (bblk m c t) (ix2 p q) = G m c (ix2 r q) := by
  refine (pay3_apply (xblk m c t) (wblk m c t) (bblk m c t) p q).trans ?_
  show Cert.Spec.lrelu _ = Cert.Spec.lrelu (Cert.Spec.pre _ _ _ _ _ r q)
  unfold Cert.Spec.pre
  rw [dif_neg (by omega), xw_blk m c t p q r hr, bblk_apply m c t 0 q, barr_apply m c 0 q]

/-- The second store's value at row p < 62 of the first point's block is the specification's at row p. -/
theorem pay4_read (c : Dev nD) (t : Fin cfg0.N) (ht : t.val = 0) (p : Fin 62) (q : Fin 64) :
    k0_pay4 (F := Ideal) (xblk m c t) (wblk m c t) (bblk m c t) (nablk m c t) (dqblk m c t) (ix2 p q)
      = G m c (ix2 (Cert.Spec.lo p) q) := by
  refine (pay4_apply (xblk m c t) (wblk m c t) (bblk m c t) (nablk m c t) (dqblk m c t) p q).trans ?_
  show Cert.Spec.lrelu _ = Cert.Spec.lrelu (Cert.Spec.pre _ _ _ _ _ (Cert.Spec.lo p) q)
  unfold Cert.Spec.pre
  rw [dif_pos (show (Cert.Spec.lo p).val < 62 from p.isLt)]
  unfold Cert.Spec.agg
  have hx : ∀ i : Fin 62, (∑ k : Fin 128, xblk m c t (ix2 (lo8192 i) k) * wblk m c t (ix2 k q))
      = Cert.Spec.xw
          (shapeCast Cert.Spec.SX2 (m ((c.tc : Thread nD τ).loc main_arg0) : Cert.Spec.SX.Idx → EReal)
            (by decide : Cert.Spec.SX.ShapeCasts Cert.Spec.SX2))
          (m ((c.tc : Thread nD τ).loc main_arg2)) (Cert.Spec.lo i) q := fun i =>
    xw_blk m c t (lo8192 i) q (Cert.Spec.lo i) (by show i.val = t.val * 8192 + i.val; omega)
  simp only [hx, nablk_apply m c t, naarr_eq m c]
  rw [bblk_apply m c t 0 q, barr_apply m c 0 q, dqblk_apply m c t p 0, dqarr_apply m c p 0]

/-- What point t leaves in the result's staging block, entry by entry: row p is row r = 8192·t + p of `G`. -/
theorem outsAt_apply (c : Dev nD) (t : Fin cfg0.N) (p : Fin 8192) (q : Fin 64) (r : Fin 507904)
    (hr : r.val = t.val * 8192 + p.val) :
    (outsAt0 m c t.val t.isLt : Vec Ideal S8192x64 .f32) (ix2 p q) = G m c (ix2 r q) := by
  have hN : t.val < 62 := lt_of_lt_of_eq t.isLt (show cfg0.N = 62 from N_0)
  by_cases h0 : t.val % 62 = 0
  · have ht : t.val = 0 := by omega
    rw [outsAt0_A m c t h0]
    by_cases hp : p.val < 62
    · obtain rfl : r = Cert.Spec.lo ⟨p.val, hp⟩ := Fin.ext (by show r.val = p.val; omega)
      show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) (ix2 (lo8192 ⟨p.val, hp⟩) q) = _
      exact (KerPieces.out_A_lo c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) ⟨p.val, hp⟩ q).trans
        (pay4_read m c t ht ⟨p.val, hp⟩ q)
    · exact (KerPieces.out_A_hi c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) p q (by omega)).trans
        (pay3_read m c t p q r hr (by omega))
  · rw [outsAt0_B m c t h0]
    exact (congrFun (KerPieces.out_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t)) (ix2 p q)).trans
      (pay3_read m c t p q r hr (by omega))

/-! ## From the blocks to the array -/

/-- What point t writes back is block t of `G`. -/
theorem flushed_eq (c : Dev nD) (t : Fin cfg0.N) :
    (dats m 0 c).flushed 5 t = ((cfg0.win 5).blk t).view.read (Elt Ideal) (G m c) := by
  have hN : t.val < 62 := lt_of_lt_of_eq t.isLt (show cfg0.N = 62 from N_0)
  obtain ⟨-, -, -, -, -, -, -, -, -, -, e0, e1⟩ := idx_facts t
  show (cfg0.win 5).cut (grid0.coords t) ((dats m 0 c).after 5 t) = _
  rw [after0_5]
  funext j
  have hj0 : (j 0).val < 8192 := (j 0).isLt
  have hj1 : (j 1).val < 64 := (j 1).isLt
  show (outsAt0 m c t.val t.isLt : Vec Ideal S8192x64 .f32) j = G m c (((cfg0.win 5).blk t).view.emb j)
  refine (congrArg (outsAt0 m c t.val t.isLt : Vec Ideal S8192x64 .f32) (eq_ix2 j)).trans
    ((outsAt_apply m c t (j 0) (j 1) ⟨t.val * 8192 + (j 0).val, by omega⟩ rfl).trans (congrArg (G m c) ?_))
  funext a
  refine Fin.ext ?_
  match a with
  | ⟨0, _⟩ => show t.val * 8192 + (j 0).val = win0_5.index t (0 : Fin 2) * 8192 + 1 * (j 0).val; omega
  | ⟨1, _⟩ => show (j 1).val = win0_5.index t (1 : Fin 2) * 64 + 1 * (j 1).val; omega

/-- An index of the result array is in point t's block iff its row is one of the block's 8192 rows. -/
theorem mem_blk (t : Fin cfg0.N) (i : S507904x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v15).slice (win0_5.rect t)).set ↔ _
  rw [View.set_slice_whole, Rect.mem_set_unit]
  exact Iff.rfl

/-- Every row of the result array belongs to the block of the point r / 8192. -/
theorem cover (i : S507904x64.Idx) : ∃ t : Fin cfg0.N, (cfg0.win 5).flush t = true ∧ i ∈ ((cfg0.win 5).blk t).view.set := by
  have hi0 : (i 0).val < 507904 := (i 0).isLt
  have hi1 : (i 1).val < 64 := (i 1).isLt
  have hN : cfg0.N = 62 := N_0
  refine ⟨⟨(i 0).val / 8192, by rw [hN]; omega⟩, flush0_5 _, ?_⟩
  obtain ⟨-, -, -, -, -, -, -, -, -, -, e0, e1⟩ := idx_facts ⟨(i 0).val / 8192, by rw [hN]; omega⟩
  rw [mem_blk]
  intro a
  match a with
  | ⟨0, _⟩ =>
    show win0_5.index _ (0 : Fin 2) * 8192 ≤ (i 0).val ∧ (i 0).val < win0_5.index _ (0 : Fin 2) * 8192 + 8192
    rw [e0]; show (i 0).val / 8192 * 8192 ≤ (i 0).val ∧ (i 0).val < (i 0).val / 8192 * 8192 + 8192; omega
  | ⟨1, _⟩ =>
    show win0_5.index _ (1 : Fin 2) * 64 ≤ (i 1).val ∧ (i 1).val < win0_5.index _ (1 : Fin 2) * 64 + 64
    rw [e1]; omega

/-- The result array after the region. -/
theorem final (c : Dev nD) : (dats m 0 c).arrAt 5 cfg0.N = G m c :=
  (dats m 0 c).arrAt_eq_of_cover 5 (G m c) (fun t _ => flushed_eq m c t) cover

end Cert.KernelIdeal.KerBlocks

end
-- ==== Proof.KerRun.lean ====
/-
  The kernel program's run read back: the host line after the region reshapes the region's result array to
  [8192, 62, 64], so every fair execution ends with the result holding `Cert.Spec.out` of the four arguments, and the
  arguments unchanged.
-/
import proofs.«138363_j9603546874456_2_alg».proof.Proof.KerBlocks
import Idealize.ShloMosaic.Lib.StableHlo.Run

noncomputable section

namespace Cert.KernelIdeal.KerRun

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The result buffer after the host line that follows the region: the region's flat result read as [8192, 62, 64]. -/
theorem tail_eq (c : Dev nD) :
    Pipeline.afterTail₀ cfgs (dats m) 0 (V0 m) [hostOps1] c main_v16
      = Cert.Spec.out (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v16) = _
  after_results
  have hw := (Pipeline.withArrays_arr spec0 launch0.win.arr_inj c (V0 m c) (fun w => (dats m 0 c).arrAt w (cfgs 0).N) 5).trans
    (KerBlocks.final m c)
  exact congrArg (fun X : FVec Ideal S507904x64 .f32 => shapeCast S8192x62x64 X shapeCasts_S507904x64_S8192x62x64) hw

/-- Every fair execution of the kernel program terminates with the result at `Cert.Spec.out` of the arguments and the
    arguments unchanged. -/
theorem run : θ_run (defs (F := Ideal)) (onTc (τ := τ) (main (F := Ideal))) ⟨m, fun _ => 0, ρ⟩ fun r => ∀ c : Dev nD,
      r.2.mem ((c.tc : Thread nD τ).loc main_v16)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KerRun

end
-- ==== Proof.RefRun.lean ====
/-
  The reference's run as one straight line of host operations.

  The printed reference is 33 host operations followed by a call of the rectifier, itself six operations and a call
  of a one-operation selection. Unfolding the two calls at their sites gives a straight line of forty operations over
  the buffers of the signature; every fair execution ends with each buffer at the fold of these operations' results
  over the contents the run started from.
-/
import proofs.«138363_j9603546874456_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The forty operations in order: the 33 of the main function, then the rectifier's six over the call's buffers
    (the zero, its broadcast, the comparison, the slope, its broadcast, the product), then the selection. -/
abbrev ops : List (HloOp τ sig (Elt F)) :=
  [ reshape main_arg0 main_v0 rfl shapeCasts_S8192x62x128_S507904x128,
    binary main_v0 main_arg2 main_v1 ((fun l r => Host.dotGeneral dot_S507904x128_S128x64_S507904x64_1_0_0_1_n_n none l r) : (⟨S507904x128, .f32⟩ : BufTy).Contents (Elt F) → (⟨S128x64, .f32⟩ : BufTy).Contents (Elt F) → (⟨S507904x64, .f32⟩ : BufTy).Contents (Elt F)),
    nullary main_cst (constant S_ .f32 0x00000000#32),
    binary main_arg1 main_cst main_v2 ((fun x v => Host.reduceAdd x v reducesTo_S62x62_S62_d0 h_S_) : (⟨S62x62, .f32⟩ : BufTy).Contents (Elt F) → (⟨S_, .f32⟩ : BufTy).Contents (Elt F) → (⟨S62, .f32⟩ : BufTy).Contents (Elt F)),
    nullary main_cst_0 (constant S_ .f32 0x3F800000#32),
    unary main_cst_0 main_v3 (broadcastInDim S62 ![] bcast_S_S62 : (⟨S_, .f32⟩ : BufTy).Contents (Elt F) → (⟨S62, .f32⟩ : BufTy).Contents (Elt F)),
    binary main_v3 main_v2 main_v4 (addf : (⟨S62, .f32⟩ : BufTy).Contents (Elt F) → (⟨S62, .f32⟩ : BufTy).Contents (Elt F) → (⟨S62, .f32⟩ : BufTy).Contents (Elt F)),
    nullary main_cst_1 (constant S_ .f32 0xBF000000#32),
    unary main_cst_1 main_v5 (broadcastInDim S62 ![] bcast_S_S62 : (⟨S_, .f32⟩ : BufTy).Contents (Elt F) → (⟨S62, .f32⟩ : BufTy).Contents (Elt F)),
    binary main_v4 main_v5 main_v6 (Host.powf : (⟨S62, .f32⟩ : BufTy).Contents (Elt F) → (⟨S62, .f32⟩ : BufTy).Contents (Elt F) → (⟨S62, .f32⟩ : BufTy).Contents (Elt F)),
    unary main_v6 main_v7 (broadcastInDim S62x1 ![0] bcast_S62_S62x1_0 : (⟨S62, .f32⟩ : BufTy).Contents (Elt F) → (⟨S62x1, .f32⟩ : BufTy).Contents (Elt F)),
    unary main_v7 main_v8 (broadcastInDim S62x62 ![0, 1] bcast_S62x1_S62x62_0_1 : (⟨S62x1, .f32⟩ : BufTy).Contents (Elt F) → (⟨S62x62, .f32⟩ : BufTy).Contents (Elt F)),
    binary main_arg1 main_v8 main_v9 (mulf : (⟨S62x62, .f32⟩ : BufTy).Contents (Elt F) → (⟨S62x62, .f32⟩ : BufTy).Contents (Elt F) → (⟨S62x62, .f32⟩ : BufTy).Contents (Elt F)),
    unary main_v6 main_v10 (broadcastInDim S1x62 ![1] bcast_S62_S1x62_1 : (⟨S62, .f32⟩ : BufTy).Contents (Elt F) → (⟨S1x62, .f32⟩ : BufTy).Contents (Elt F)),
    unary main_v10 main_v11 (broadcastInDim S62x62 ![0, 1] bcast_S1x62_S62x62_0_1 : (⟨S1x62, .f32⟩ : BufTy).Contents (Elt F) → (⟨S62x62, .f32⟩ : BufTy).Contents (Elt F)),
    binary main_v9 main_v11 main_v12 (mulf : (⟨S62x62, .f32⟩ : BufTy).Contents (Elt F) → (⟨S62x62, .f32⟩ : BufTy).Contents (Elt F) → (⟨S62x62, .f32⟩ : BufTy).Contents (Elt F)),
    unary main_v1 main_v13 ((extractStridedSlice S62x64 ![0, 0] · slices_S507904x64_S62x64_0_0) : (⟨S507904x64, .f32⟩ : BufTy).Contents (Elt F) → (⟨S62x64, .f32⟩ : BufTy).Contents (Elt F)),
    unary main_v12 main_v14 ((transpose S62x62 [1, 0] · transposes_S62x62_S62x62_1_0) : (⟨S62x62, .f32⟩ : BufTy).Contents (Elt F) → (⟨S62x62, .f32⟩ : BufTy).Contents (Elt F)),
    binary main_v14 main_v13 main_v15 ((fun l r => Host.dotGeneral dot_S62x62_S62x64_S62x64_1_0_0_1_n_n none l r) : (⟨S62x62, .f32⟩ : BufTy).Contents (Elt F) → (⟨S62x64, .f32⟩ : BufTy).Contents (Elt F) → (⟨S62x64, .f32⟩ : BufTy).Contents (Elt F)),
    binary main_v6 main_v6 main_v16 (mulf : (⟨S62, .f32⟩ : BufTy).Contents (Elt F) → (⟨S62, .f32⟩ : BufTy).Contents (Elt F) → (⟨S62, .f32⟩ : BufTy).Contents (Elt F)),
    unary main_v16 main_v17 (broadcastInDim S62x1 ![0] bcast_S62_S62x1_0 : (⟨S62, .f32⟩ : BufTy).Contents (Elt F) → (⟨S62x1, .f32⟩ : BufTy).Contents (Elt F)),
    unary main_v17 main_v18 (broadcastInDim S62x64 ![0, 1] bcast_S62x1_S62x64_0_1 : (⟨S62x1, .f32⟩ : BufTy).Contents (Elt F) → (⟨S62x64, .f32⟩ : BufTy).Contents (Elt F)),
    binary main_v18 main_v13 main_v19 (mulf : (⟨S62x64, .f32⟩ : BufTy).Contents (Elt F) → (⟨S62x64, .f32⟩ : BufTy).Contents (Elt F) → (⟨S62x64, .f32⟩ : BufTy).Contents (Elt F)),
    binary main_v15 main_v19 main_v20 (addf : (⟨S62x64, .f32⟩ : BufTy).Contents (Elt F) → (⟨S62x64, .f32⟩ : BufTy).Contents (Elt F) → (⟨S62x64, .f32⟩ : BufTy).Contents (Elt F)),
    nullary main_c (constantI S_ 32 0#32),
    unary main_c main_v21 (broadcastInDim S1 ![] bcast_S_S1 : (⟨S_, .i32⟩ : BufTy).Contents (Elt F) → (⟨S1, .i32⟩ : BufTy).Contents (Elt F)),
    ternary main_v1 main_v21 main_v20 main_v22 ((fun x i u => Host.scatter scatter_S507904x64_S1_S62x64_01_n_0_0 (fun _ b => b) x i u) : (⟨S507904x64, .f32⟩ : BufTy).Contents (Elt F) → (⟨S1, .i32⟩ : BufTy).Contents (Elt F) → (⟨S62x64, .f32⟩ : BufTy).Contents (Elt F) → (⟨S507904x64, .f32⟩ : BufTy).Contents (Elt F)),
    unary main_arg3 main_v23 (broadcastInDim S1x64 ![1] bcast_S64_S1x64_1 : (⟨S64, .f32⟩ : BufTy).Contents (Elt F) → (⟨S1x64, .f32⟩ : BufTy).Contents (Elt F)),
    unary main_v23 main_v24 (broadcastInDim S507904x64 ![0, 1] bcast_S1x64_S507904x64_0_1 : (⟨S1x64, .f32⟩ : BufTy).Contents (Elt F) → (⟨S507904x64, .f32⟩ : BufTy).Contents (Elt F)),
    binary main_v22 main_v24 main_v25 (addf : (⟨S507904x64, .f32⟩ : BufTy).Contents (Elt F) → (⟨S507904x64, .f32⟩ : BufTy).Contents (Elt F) → (⟨S507904x64, .f32⟩ : BufTy).Contents (Elt F)),
    reshape main_v25 main_v26 rfl shapeCasts_S507904x64_S8192x62x64,
    TRef.nullary main_call0.cst (constant S_ .f32 0x00000000#32),
    TRef.unary main_call0.cst main_call0.v0 (broadcastInDim S8192x62x64 ![] bcast_S_S8192x62x64),
    TRef.binary (.of main_v26) main_call0.v0 main_call0.v1 (cmpf .oge),
    TRef.nullary main_call0.cst_0 (constant S_ .f32 0x3C23D70A#32),
    TRef.unary main_call0.cst_0 main_call0.v2 (broadcastInDim S8192x62x64 ![] bcast_S_S8192x62x64),
    TRef.binary main_call0.v2 (.of main_v26) main_call0.v3 mulf,
    TRef.ternary main_call0.v1 (.of main_v26) main_call0.v3 main_call0.call0.v0 select ]

-- forty binds re-associated: the rewriting under the chain recurses once per statement
set_option maxRecDepth 2048 in
/-- The main function is that straight line: the two functions' definitions unfolded at their calls, both sides are
    one chain of host steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    nullary_bufs_sub .., unary_bufs_sub .., ternary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub ..⟩

/-- From any memory with zero counters, every fair execution of the main function terminates, and every final state
    has each buffer at the fold of the forty operations over the contents the run started from. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibScatterSet.lean ====
/-
  A scatter that replaces entries (jnp's  x.at[…].set(u)) read at one entry.

  The host's scatter is a left fold over the updates' positions in row-major order: the update at position n is
  written at the operand entry it lands on, or dropped when it lands outside. With the replacing body (the new entry
  is the update, whatever was there) an entry of the result is decided by the updates that land on it: if none does,
  the entry is the operand's; if exactly one does, the entry is that update. The second part reads the landing entry
  for the scatter of a block of k rows at the top of an array of n rows (one start index, equal to zero): the update
  at (r, v) lands on the operand's (r, v), so the result is the block on the first k rows and the operand below.
-/
import Idealize.ShloMosaic.PureOps.ShapeOps
import Idealize.ShloMosaic.Lib.ValueIdx

namespace Cert.Lib.ScatterSet

open Idealize.ShloMosaic Idealize.ShloMosaic.ValueIdx

/-! ## A left fold read through an observation -/

section Fold

variable {β γ ι : Type}

/-- If no step over the list changes what is observed, the fold leaves the observation as it was. -/
theorem foldl_read_miss (g : β → ι → β) (rd : β → γ) (L : List ι) (h : ∀ r, ∀ n ∈ L, rd (g r n) = rd r) (r : β) :
    rd (L.foldl g r) = rd r := by
  induction L generalizing r with
  | nil => rfl
  | cons a t ih =>
    rw [List.foldl_cons, ih (fun r n hn => h r n (List.mem_cons_of_mem _ hn)), h r a (List.mem_cons.2 (Or.inl rfl))]

/-- If one step of a list without repetition sets the observation to v, and no other step changes it, the fold
    leaves the observation at v. -/
theorem foldl_read_hit (g : β → ι → β) (rd : β → γ) (v : γ) (n0 : ι) (L : List ι) (hnd : L.Nodup) (hmem : n0 ∈ L)
    (hhit : ∀ r, rd (g r n0) = v) (hmiss : ∀ r, ∀ n ∈ L, n ≠ n0 → rd (g r n) = rd r) (r : β) :
    rd (L.foldl g r) = v := by
  induction L generalizing r with
  | nil => exact absurd hmem List.not_mem_nil
  | cons a t ih =>
    rw [List.foldl_cons]
    have hnd' := List.nodup_cons.1 hnd
    by_cases ha : a = n0
    · subst ha
      rw [foldl_read_miss g rd t fun r n hn => hmiss r n (List.mem_cons_of_mem _ hn) fun e => hnd'.1 (e ▸ hn)]
      exact hhit r
    · have hm : n0 ∈ t := by
        rcases List.mem_cons.1 hmem with e | h
        · exact absurd e.symm ha
        · exact h
      exact ih hnd'.2 hm (fun r n hn => hmiss r n (List.mem_cons_of_mem _ hn)) (g r a)

end Fold

/-! ## The replacing scatter at one entry -/

variable {α : Type} {s si u : Shape} {w : Nat}

/-- An entry no update lands on keeps the operand's value. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine foldl_read_miss _ (fun r => r i) _ (fun r n _ => ?_) x
  have hn := h (u.rowMajor.symm n)
  dsimp only
  cases e : d.resultIdx? (u.rowMajor.symm n) idx with
  | none => rfl
  | some i0 =>
    dsimp only
    rw [if_neg]
    rintro rfl
    exact hn e

/-- An entry exactly one update lands on holds that update. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  refine foldl_read_hit _ (fun r => r i) (upd j) (u.rowMajor j) _ (List.nodup_finRange _) (List.mem_finRange _)
    (fun r => ?_) (fun r n _ hne => ?_) x
  · dsimp only
    rw [Equiv.symm_apply_apply, hj]
    dsimp only
    rw [if_pos rfl]
  · dsimp only
    cases e : d.resultIdx? (u.rowMajor.symm n) idx with
    | none => rfl
    | some i0 =>
      dsimp only
      rw [if_neg]
      rintro rfl
      exact hne (by rw [← huniq _ e, Equiv.apply_symm_apply])

/-! ## A block of rows written at the top -/

section TopRows

variable {n c k w : Nat}

/-- Dimension numbers of the scatter that writes a [k, c] block into an [n, c] array at one start index naming axis 0:
    both update axes are window axes, no operand axis is inserted, the index vector has one component, for axis 0. -/
structure TopRows (d : ScatterDims ⟨2, ![n, c]⟩ ⟨1, ![1]⟩ ⟨2, ![k, c]⟩) : Prop where
  uw : d.updateWindowDims = [0, 1]
  iw : d.insertedWindowDims = []
  sd : d.scatterDimsToOperandDims = [0]
  iv : d.indexVectorDim = 0

variable {d : ScatterDims ⟨2, ![n, c]⟩ ⟨1, ![1]⟩ ⟨2, ![k, c]⟩}

/-- The window coordinate on each operand axis is the update's coordinate on that axis. -/
theorem TopRows.window (h : TopRows d) (j : (⟨2, ![k, c]⟩ : Shape).Idx) (a : Fin 2) : d.window j a = (j a).val := by
  obtain ⟨uw, iw, sd, iv, wf⟩ := d
  obtain ⟨h1, h2, h3, h4⟩ := h
  dsimp only at h1 h2 h3 h4
  subst h1 h2 h3 h4
  match a with
  | ⟨0, _⟩ => rfl
  | ⟨1, _⟩ => rfl

/-- With the start index zero, the window starts at zero on both axes: axis 0 reads the index word, axis 1 is not named. -/
theorem TopRows.start (h : TopRows d) (j : (⟨2, ![k, c]⟩ : Shape).Idx) (idx : IVec ⟨1, ![1]⟩ w) (hidx : ∀ q, idx q = 0#w) (a : Fin 2) :
    d.start j idx a = 0 := by
  obtain ⟨uw, iw, sd, iv, wf⟩ := d
  obtain ⟨h1, h2, h3, h4⟩ := h
  dsimp only at h1 h2 h3 h4
  subst h1 h2 h3 h4
  unfold ScatterDims.start
  split
  · rw [hidx]; exact BitVec.toInt_zero
  · rfl

/-- With the start index zero and k ≤ n, the update at (r, v) lands on the operand's entry (r, v). -/
theorem TopRows.resultIdx? (h : TopRows d) (hk : k ≤ n) (idx : IVec ⟨1, ![1]⟩ w) (hidx : ∀ q, idx q = 0#w)
    (j : (⟨2, ![k, c]⟩ : Shape).Idx) :
    d.resultIdx? j idx = some (ix2 (⟨(j 0).val, lt_of_lt_of_le (idx2_lt0 j) hk⟩ : Fin n) (j 1)) := by
  unfold ScatterDims.resultIdx?
  have hb : ∀ a, 0 ≤ d.start j idx a + d.window j a ∧ d.start j idx a + d.window j a < (⟨2, ![n, c]⟩ : Shape).size a := by
    intro a
    rw [h.start j idx hidx a, h.window j a]
    match a with
    | ⟨0, _⟩ =>
      have := idx2_lt0 j
      refine ⟨by omega, ?_⟩
      show (0 : Int) + ((j 0).val : Int) < (n : Int)
      omega
    | ⟨1, _⟩ =>
      have := idx2_lt1 j
      refine ⟨by omega, ?_⟩
      show (0 : Int) + ((j 1).val : Int) < (c : Int)
      omega
  rw [dif_pos hb]
  refine congrArg some (funext fun a => Fin.ext ?_)
  show (d.start j idx a + d.window j a).toNat = _
  rw [h.start j idx hidx a, h.window j a]
  match a with
  | ⟨0, _⟩ => simp
  | ⟨1, _⟩ => simp

/-- On the first k rows the result is the block. -/
theorem TopRows.scatter_set_top (h : TopRows d) (hk : k ≤ n) {α : Type} (x : (⟨2, ![n, c]⟩ : Shape).Idx → α)
    (idx : IVec ⟨1, ![1]⟩ w) (hidx : ∀ q, idx q = 0#w) (upd : (⟨2, ![k, c]⟩ : Shape).Idx → α) (r : Fin n) (v : Fin c)
    (hr : r.val < k) :
    Host.scatter d (fun _ b => b) x idx upd (ix2 r v) = upd (ix2 (⟨r.val, hr⟩ : Fin k) v) := by
  refine scatter_set_hit d x idx upd (ix2 r v) (ix2 (⟨r.val, hr⟩ : Fin k) v) (h.resultIdx? hk idx hidx _) fun j' hj' => ?_
  rw [h.resultIdx? hk idx hidx j'] at hj'
  have e := Option.some.inj hj'
  have e0 : (j' 0).val = r.val := congrArg Fin.val (congrFun e 0)
  have e1 : j' 1 = v := congrFun e 1
  rw [eq_ix2 j']
  exact congrArg₂ ix2 (Fin.ext e0) e1

/-- Below the first k rows the result is the operand. -/
theorem TopRows.scatter_set_below (h : TopRows d) (hk : k ≤ n) {α : Type} (x : (⟨2, ![n, c]⟩ : Shape).Idx → α)
    (idx : IVec ⟨1, ![1]⟩ w) (hidx : ∀ q, idx q = 0#w) (upd : (⟨2, ![k, c]⟩ : Shape).Idx → α) (r : Fin n) (v : Fin c)
    (hr : ¬ r.val < k) :
    Host.scatter d (fun _ b => b) x idx upd (ix2 r v) = x (ix2 r v) := by
  refine scatter_set_miss d x idx upd (ix2 r v) fun j hj => ?_
  rw [h.resultIdx? hk idx hidx j] at hj
  have e0 : (j 0).val = r.val := congrArg Fin.val (congrFun (Option.some.inj hj) 0)
  exact hr (e0 ▸ idx2_lt0 j)

end TopRows

end Cert.Lib.ScatterSet
-- ==== Proof.RefValue.lean ====
/-
  The reference's run read back: every fair execution of the reference ends with its result array holding
  `Cert.Spec.out` of the four argument arrays, the arguments unchanged.

  The run is a straight line of forty host operations; the fold of their results at the result buffer is one composed
  term of the four arguments. Entry by entry that term is the specification's: both products are plain sums over the
  shared axis, the slice, the transpose and the broadcasts re-index, the replacing scatter of a 62-row block at start
  index zero gives the block on the first 62 rows and the operand below, and the rectifier's selection is applied to
  the same flat entry on both sides of the final change of shape.
-/
import proofs.«138363_j9603546874456_2_alg».proof.Proof.Gen.ReferenceIdeal
import proofs.«138363_j9603546874456_2_alg».proof.Proof.RefRun
import proofs.«138363_j9603546874456_2_alg».proof.Proof.Spec
import proofs.«138363_j9603546874456_2_alg».proof.Proof.LibDotRowsCols
import proofs.«138363_j9603546874456_2_alg».proof.Proof.LibScatterSet
import Idealize.ShloMosaic.Lib.StableHlo.Run
import Idealize.ShloMosaic.Lib.ValueLayout
import Idealize.ShloMosaic.Lib.Pipeline.Value
import Idealize.ShloMosaic.Lib.IdealHost
import Idealize.ShloMosaic.Lib.ValueIdx

noncomputable section

open scoped BigOperators

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-! ## The composed term of the result -/

/-- The flat input through the weights, all 507904 rows, as the host computes it. -/
def xwAll (x : FVec Ideal S8192x62x128 .f32) (W : FVec Ideal S128x64 .f32) : FVec Ideal S507904x64 .f32 :=
  Host.dotGeneral (F := Ideal) dot_S507904x128_S128x64_S507904x64_1_0_0_1_n_n none
    (shapeCast S507904x128 x shapeCasts_S8192x62x128_S507904x128) W

/-- The aggregate that replaces the first 62 rows: the transposed normalised adjacency times the first 62 rows, plus
    the self weight times them. -/
def firstRows (x : FVec Ideal S8192x62x128 .f32) (adj : FVec Ideal S62x62 .f32) (W : FVec Ideal S128x64 .f32) :
    FVec Ideal S62x64 .f32 :=
  addf
    (Host.dotGeneral (F := Ideal) dot_S62x62_S62x64_S62x64_1_0_0_1_n_n none
      (transpose S62x62 [1, 0] (Cert.Spec.normAdj adj) transposes_S62x62_S62x62_1_0)
      (extractStridedSlice S62x64 ![0, 0] (xwAll x W) slices_S507904x64_S62x64_0_0))
    (mulf
      (broadcastInDim S62x64 ![0, 1] bcast_S62x1_S62x64_0_1 (broadcastInDim S62x1 ![0] bcast_S62_S62x1_0 (Cert.Spec.dsq adj)))
      (extractStridedSlice S62x64 ![0, 0] (xwAll x W) slices_S507904x64_S62x64_0_0))

/-- The flat value before the rectifier: the first 62 rows replaced, the bias added to every row. -/
def preAll (x : FVec Ideal S8192x62x128 .f32) (adj : FVec Ideal S62x62 .f32) (W : FVec Ideal S128x64 .f32)
    (b : FVec Ideal S64 .f32) : FVec Ideal S507904x64 .f32 :=
  addf
    (Host.scatter scatter_S507904x64_S1_S62x64_01_n_0_0 (fun _ v => v) (xwAll x W)
      (broadcastInDim S1 ![] bcast_S_S1 (constantI S_ 32 0#32)) (firstRows x adj W))
    (broadcastInDim S507904x64 ![0, 1] bcast_S1x64_S507904x64_0_1 (broadcastInDim S1x64 ![1] bcast_S64_S1x64_1 b))

/-- The same read as [8192, 62, 64]. -/
def pre3 (x : FVec Ideal S8192x62x128 .f32) (adj : FVec Ideal S62x62 .f32) (W : FVec Ideal S128x64 .f32)
    (b : FVec Ideal S64 .f32) : FVec Ideal S8192x62x64 .f32 :=
  shapeCast S8192x62x64 (preAll x adj W b) shapeCasts_S507904x64_S8192x62x64

/-- The result: the rectifier's selection between the value and the slope times it. -/
def outTerm (x : FVec Ideal S8192x62x128 .f32) (adj : FVec Ideal S62x62 .f32) (W : FVec Ideal S128x64 .f32)
    (b : FVec Ideal S64 .f32) : FVec Ideal S8192x62x64 .f32 :=
  select
    (cmpf .oge (pre3 x adj W b)
      (broadcastInDim S8192x62x64 ![] bcast_S_S8192x62x64 (constant (F := Ideal) S_ .f32 0x00000000#32)))
    (pre3 x adj W b)
    (mulf (broadcastInDim S8192x62x64 ![] bcast_S_S8192x62x64 (constant (F := Ideal) S_ .f32 0x3C23D70A#32))
      (pre3 x adj W b))

attribute [local irreducible] Host.scatter Host.reduceAdd Host.powf in
set_option maxRecDepth 8192 in
/-- The fold of the forty operations at the result buffer is that term of the four argument buffers: each operation's
    result read at its own buffer, the shared chain on the adjacency being the same operations and literals. -/
theorem out_eq (V : Valuation τ sig (Elt Ideal)) :
    after (ops (F := Ideal)) V (main_v27 : DevRef τ sig)
      = outTerm (V (main_arg0 : DevRef τ sig)) (V (main_arg1 : DevRef τ sig)) (V (main_arg2 : DevRef τ sig))
          (V (main_arg3 : DevRef τ sig)) := by
  after_results_simp
  rfl

theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp
theorem arg3_eq (V : Valuation τ sig (Elt Ideal)) :
    after (ops (F := Ideal)) V (main_arg3 : DevRef τ sig) = V (main_arg3 : DevRef τ sig) := by after_results_simp

/-! ## The term read entry by entry -/

/-- The large product is a rows-by-columns product. -/
theorem rowsCols_all : Cert.Lib.DotRowsCols.RowsCols dot_S507904x128_S128x64_S507904x64_1_0_0_1_n_n :=
  ⟨rfl, rfl, rfl, rfl, rfl, rfl⟩

/-- The 62-row product is a rows-by-columns product. -/
theorem rowsCols_first : Cert.Lib.DotRowsCols.RowsCols dot_S62x62_S62x64_S62x64_1_0_0_1_n_n :=
  ⟨rfl, rfl, rfl, rfl, rfl, rfl⟩

/-- The scatter writes a block of rows at one start index naming axis 0. -/
theorem topRows : Cert.Lib.ScatterSet.TopRows scatter_S507904x64_S1_S62x64_01_n_0_0 := ⟨rfl, rfl, rfl, rfl⟩

/-- The flat view of the input, as the specification names it. -/
abbrev x2 (x : FVec Ideal S8192x62x128 .f32) : FVec Ideal Cert.Spec.SX2 .f32 := shapeCast Cert.Spec.SX2 x (by decide)

/-- Row r of the flat input through the weights. -/
theorem xwAll_apply (x : FVec Ideal S8192x62x128 .f32) (W : FVec Ideal S128x64 .f32) (r : Fin 507904) (c : Fin 64) :
    xwAll x W (ix2 r c) = Cert.Spec.xw (x2 x) W r c := by
  unfold xwAll Cert.Spec.xw
  exact rowsCols_all.dotGeneral_apply none _ W (ix2 r c)

/-- The slice of the first 62 rows reads those rows. -/
theorem slice_apply (x : FVec Ideal S8192x62x128 .f32) (W : FVec Ideal S128x64 .f32) (i : Fin 62) (c : Fin 64) :
    extractStridedSlice S62x64 ![0, 0] (xwAll x W) slices_S507904x64_S62x64_0_0 (ix2 i c)
      = Cert.Spec.xw (x2 x) W (Cert.Spec.lo i) c :=
  (extractStridedSlice_apply ![0, 0] (xwAll x W) slices_S507904x64_S62x64_0_0 (ix2 i c) (ix2 (Cert.Spec.lo i) c)
    fun a => match a with
      | ⟨0, _⟩ => (Nat.zero_add _).symm
      | ⟨1, _⟩ => (Nat.zero_add _).symm).trans (xwAll_apply x W (Cert.Spec.lo i) c)

/-- A vector of 62 broadcast along the columns reads its row's entry. -/
theorem bcastRows_apply (v : FVec Ideal S62 .f32) (r : Fin 62) (c : Fin 64) :
    broadcastInDim S62x64 ![0, 1] bcast_S62x1_S62x64_0_1 (broadcastInDim S62x1 ![0] bcast_S62_S62x1_0 v) (ix2 r c)
      = v (ix1 r) :=
  (broadcastInDim_apply ![0, 1] bcast_S62x1_S62x64_0_1 _ (ix2 r c) (ix2 r (0 : Fin 1))
    fun a => match a with
      | ⟨0, _⟩ => by simp
      | ⟨1, _⟩ => by simp).trans
  (broadcastInDim_apply ![0] bcast_S62_S62x1_0 v (ix2 r (0 : Fin 1)) (ix1 r)
    fun a => match a with
      | ⟨0, _⟩ => by simp)

/-- The bias broadcast along the rows reads its column's entry. -/
theorem bcastCols_apply (b : FVec Ideal S64 .f32) (r : Fin 507904) (c : Fin 64) :
    broadcastInDim S507904x64 ![0, 1] bcast_S1x64_S507904x64_0_1 (broadcastInDim S1x64 ![1] bcast_S64_S1x64_1 b) (ix2 r c)
      = b (ix1 c) :=
  (broadcastInDim_apply ![0, 1] bcast_S1x64_S507904x64_0_1 _ (ix2 r c) (ix2 (0 : Fin 1) c)
    fun a => match a with
      | ⟨0, _⟩ => by simp
      | ⟨1, _⟩ => by simp).trans
  (broadcastInDim_apply ![1] bcast_S64_S1x64_1 b (ix2 (0 : Fin 1) c) (ix1 c)
    fun a => match a with
      | ⟨0, _⟩ => by simp)

/-- The replacement of the first 62 rows is the specification's aggregate. -/
theorem firstRows_apply (x : FVec Ideal S8192x62x128 .f32) (adj : FVec Ideal S62x62 .f32) (W : FVec Ideal S128x64 .f32)
    (r : Fin 62) (c : Fin 64) :
    firstRows x adj W (ix2 r c)
      = Cert.Spec.agg (Cert.Spec.normAdj adj) (Cert.Spec.dsq adj) (fun i c' => Cert.Spec.xw (x2 x) W (Cert.Spec.lo i) c') r c := by
  unfold firstRows Cert.Spec.agg
  rw [addf_apply, mulf_apply, bcastRows_apply, slice_apply]
  refine congrArg (· + _) ?_
  refine (rowsCols_first.dotGeneral_apply none _ _ (ix2 r c)).trans (Finset.sum_congr rfl fun i _ => ?_)
  exact congrArg₂ (· * ·) (transpose_ix2_apply (Cert.Spec.normAdj adj) transposes_S62x62_S62x62_1_0 r i) (slice_apply x W i c)

/-- The scatter's one start index is zero. -/
theorem start_zero (q : S1.Idx) : broadcastInDim S1 ![] bcast_S_S1 (constantI S_ 32 0#32) q = 0#32 := rfl

/-- The flat value before the rectifier is the specification's, entry by entry. -/
theorem preAll_apply (x : FVec Ideal S8192x62x128 .f32) (adj : FVec Ideal S62x62 .f32) (W : FVec Ideal S128x64 .f32)
    (b : FVec Ideal S64 .f32) (r : Fin 507904) (c : Fin 64) :
    preAll x adj W b (ix2 r c) = Cert.Spec.pre (x2 x) W (Cert.Spec.normAdj adj) (Cert.Spec.dsq adj) b r c := by
  unfold preAll Cert.Spec.pre
  rw [addf_apply, bcastCols_apply]
  refine congrArg (· + _) ?_
  by_cases h : r.val < 62
  · rw [dif_pos h]
    exact (topRows.scatter_set_top (by decide) (xwAll x W) _ start_zero (firstRows x adj W) r c h).trans
      (firstRows_apply x adj W ⟨r.val, h⟩ c)
  · rw [dif_neg h]
    exact (topRows.scatter_set_below (by decide) (xwAll x W) _ start_zero (firstRows x adj W) r c h).trans
      (xwAll_apply x W r c)

/-- The rectifier applied entry by entry to the flat value is the specification's flat result. -/
theorem flat_eq (x : FVec Ideal S8192x62x128 .f32) (adj : FVec Ideal S62x62 .f32) (W : FVec Ideal S128x64 .f32)
    (b : FVec Ideal S64 .f32) :
    (fun j => Cert.Spec.lrelu (preAll x adj W b j))
      = Cert.Spec.flat (x2 x) W (Cert.Spec.normAdj adj) (Cert.Spec.dsq adj) b := by
  funext j
  unfold Cert.Spec.flat
  exact congrArg Cert.Spec.lrelu
    ((congrArg (preAll x adj W b) (eq_ix2 j)).trans (preAll_apply x adj W b (j 0) (j 1)))

/-- The composed term is the specification's result: the rectifier commutes with the change of shape, which reads
    both flat arrays at the same entry. -/
theorem outTerm_eq (x : FVec Ideal S8192x62x128 .f32) (adj : FVec Ideal S62x62 .f32) (W : FVec Ideal S128x64 .f32)
    (b : FVec Ideal S64 .f32) : outTerm x adj W b = Cert.Spec.out x adj W b := by
  unfold Cert.Spec.out
  rw [← flat_eq x adj W b]
  funext i
  unfold outTerm
  rw [select_apply, cmpf_apply, mulf_apply, broadcastInDim_scalar_apply, broadcastInDim_scalar_apply, constant_apply,
    constant_apply]
  rfl

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c main_v27).trans (out_eq _)).trans (outTerm_eq _ _ _ _),
        (h c main_arg0).trans (arg0_eq _),
        (h c main_arg1).trans (arg1_eq _),
        (h c main_arg2).trans (arg2_eq _),
        (h c main_arg3).trans (arg3_eq _)⟩)
    (run_main m ρ)

end Cert.ReferenceIdeal.RefValue

end
-- ==== Proof.lean ====
/-
  Dense-adjacency graph convolution with a leaky rectifier: the kernel program against its jnp reference.

  Both programs compute, entry by entry, the same expression tree of the four arguments (`Cert.Spec.out`): every flat
  row of x goes through the weights; the first 62 rows are replaced by the aggregate over the first sample's nodes,
  ∑ i, na[i, j] · (xW)[i, c] + d[j]² · (xW)[j, c], with na and d computed from adj by the same host operations in both
  programs; the bias is added and the rectifier applied. The kernel does this a block of 8192 rows at a time, writing
  the aggregate over the first 62 rows of the first block; the reference does it on the whole array and replaces the
  first 62 rows by a scatter at start index zero. A product computed a block of rows at a time is the whole product
  row by row, and the replacement is the same rows in both, so no algebraic law beyond re-indexing is used and the
  finiteness of the inputs is never opened.

  The three frames are the two generated kernel frames and the reference's run with its result dropped; the
  idealization rewrote nothing, so `preserves` is `True`; `algebraic` puts the two runs side by side at the common
  value.
-/
import proofs.«138363_j9603546874456_2_alg».proof.Defs
import proofs.«138363_j9603546874456_2_alg».proof.Proof.Gen.Kernel
import proofs.«138363_j9603546874456_2_alg».proof.Proof.Gen.Kernel.Skeleton
import proofs.«138363_j9603546874456_2_alg».proof.Proof.Gen.Kernel.Launch
import proofs.«138363_j9603546874456_2_alg».proof.Proof.Gen.Kernel.Points
import proofs.«138363_j9603546874456_2_alg».proof.Proof.Gen.Kernel.Frame
import proofs.«138363_j9603546874456_2_alg».proof.Proof.Gen.KernelIdeal
import proofs.«138363_j9603546874456_2_alg».proof.Proof.Gen.KernelIdeal.Skeleton
import proofs.«138363_j9603546874456_2_alg».proof.Proof.Gen.KernelIdeal.Launch
import proofs.«138363_j9603546874456_2_alg».proof.Proof.Gen.KernelIdeal.Points
import proofs.«138363_j9603546874456_2_alg».proof.Proof.Gen.KernelIdeal.Frame
import proofs.«138363_j9603546874456_2_alg».proof.Proof.Gen.ReferenceIdeal
import proofs.«138363_j9603546874456_2_alg».proof.Proof.Gen.Pre_finite_inputs
import proofs.«138363_j9603546874456_2_alg».proof.Proof.KerRun
import proofs.«138363_j9603546874456_2_alg».proof.Proof.RefValue
import Idealize.ShloMosaic.Adequacy
import Idealize.ShloMosaic.Init

noncomputable section

namespace Cert.Proof

open Idealize.ShloMosaic Idealize.SL.Sem

/-- The kernel program as printed runs to the end and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both idealized programs end with their result at `Cert.Spec.out` of arguments that agree. -/
theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
